-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S14541x400 : Shape := ⟨2, ![14541, 400]⟩
abbrev S474x400 : Shape := ⟨2, ![474, 400]⟩
abbrev S1 : Shape := ⟨1, ![1]⟩
abbrev S32x2 : Shape := ⟨2, ![32, 2]⟩
abbrev S4x14505 : Shape := ⟨2, ![4, 14505]⟩
abbrev S_ : Shape := ⟨0, ![]⟩

class Facts : Prop where
  bcast_S_S14541x400 : S_.BroadcastsInDim S14541x400 (![] : Fin 0 → Fin S14541x400.rank)
  reducesTo_S14541x400_S_d0_1 : S14541x400.ReducesTo [0, 1] S_
  h_S_ : 0 < S_.numel
  bcast_S_S474x400 : S_.BroadcastsInDim S474x400 (![] : Fin 0 → Fin S474x400.rank)
  reducesTo_S474x400_S_d0_1 : S474x400.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg2 : FVec F S474x400 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_cst_6 : FVec F S_ .f32 := constant S_ .f32 0x00000000#32
  let main_v19 : FVec F S474x400 .f32 := broadcastInDim S474x400 ![] bcast_S_S474x400 main_cst_6
  let main_v20 : IVec S474x400 1 := cmpf .oge main_arg2 main_v19
  let main_c_7 : IVec S_ 1 := constantI S_ 1 1#1
  let main_v21 : IVec S_ 1 := (fun x v => Host.reduce IntOp.andi x v reducesTo_S474x400_S_d0_1 h_S_) main_v20 main_c_7
  let main_v22 : IVec S_ 1 := andi main_v18 main_v21
  main_v22

def fn {F : FTy → Type} [FloatOps F] (main_arg0 : FVec F S14541x400 .f32) (main_arg1 : FVec F S474x400 .f32) (main_arg2 : FVec F S474x400 .f32) (main_arg3 : FVec F S1 .f32) (main_arg4 : IVec S32x2 32) (main_arg5 : IVec S4x14505 32) : IVec S_ 1 :=
  let main_v0 : FVec F S14541x400 .f32 := Host.absf main_arg0
  let main_cst : FVec F S_ .f32 := constant S_ .f32 0x7F800000#32
  let main_v1 : FVec F S14541x400 .f32 := broadcastInDim S14541x400 ![] bcast_S_S14541x400 main_cst
  let main_v2 : IVec S14541x400 1 := cmpf .olt main_v0 main_v1
  let main_c : IVec S_ 1 := constantI S_ 1 1#1
  let main_v3 : IVec S_ 1 := (fun x v => Host.reduce IntOp.andi x v reducesTo_S14541x400_S_d0_1 h_S_) main_v2 main_c
  let main_v4 : FVec F S474x400 .f32 := Host.absf main_arg1
  let main_cst_0 : FVec F S_ .f32 := constant S_ .f32 0x7F800000#32
  let main_v5 : FVec F S474x400 .f32 := broadcastInDim S474x400 ![] bcast_S_S474x400 main_cst_0
  let main_v6 : IVec S474x400 1 := cmpf .olt main_v4 main_v5
  let main_c_1 : IVec S_ 1 := constantI S_ 1 1#1
  let main_v7 : IVec S_ 1 := (fun x v => Host.reduce IntOp.andi x v reducesTo_S474x400_S_d0_1 h_S_) main_v6 main_c_1
  let main_v8 : IVec S_ 1 := andi main_v3 main_v7
  let main_v9 : FVec F S474x400 .f32 := Host.absf main_arg2
  let main_cst_2 : FVec F S_ .f32 := constant S_ .f32 0x7F800000#32
  let main_v10 : FVec F S474x400 .f32 := broadcastInDim S474x400 ![] bcast_S_S474x400 main_cst_2
  let main_v11 : IVec S474x400 1 := cmpf .olt main_v9 main_v10
  let main_c_3 : IVec S_ 1 := constantI S_ 1 1#1
  let main_v12 : IVec S_ 1 := (fun x v => Host.reduce IntOp.andi x v reducesTo_S474x400_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg2 main_v13 main_v16
-- ==== Kernel.lean ====
abbrev S14541x400 : Shape := ⟨2, ![14541, 400]⟩
abbrev S474x400 : Shape := ⟨2, ![474, 400]⟩
abbrev S1 : Shape := ⟨1, ![1]⟩
abbrev S32x2 : Shape := ⟨2, ![32, 2]⟩
abbrev S4x14505 : Shape := ⟨2, ![4, 14505]⟩
abbrev S32x1 : Shape := ⟨2, ![32, 1]⟩
abbrev S32 : Shape := ⟨1, ![32]⟩
abbrev S_ : Shape := ⟨0, ![]⟩
abbrev S32x400 : Shape := ⟨2, ![32, 400]⟩
abbrev S1x14505 : Shape := ⟨2, ![1, 14505]⟩
abbrev S14505 : Shape := ⟨1, ![14505]⟩
abbrev S14505x1 : Shape := ⟨2, ![14505, 1]⟩
abbrev S14505x400 : Shape := ⟨2, ![14505, 400]⟩
abbrev S32x14505 : Shape := ⟨2, ![32, 14505]⟩
abbrev S128x400 : Shape := ⟨2, ![128, 400]⟩
abbrev S32x128 : Shape := ⟨2, ![32, 128]⟩
abbrev S1x128x400 : Shape := ⟨3, ![1, 128, 400]⟩
abbrev S32x1x400 : Shape := ⟨3, ![32, 1, 400]⟩
abbrev S32x128x400 : Shape := ⟨3, ![32, 128, 400]⟩
abbrev S1x1 : Shape := ⟨2, ![1, 1]⟩

abbrev nBuf : Space → Nat
  | .hbm => 55
  | .vmem => 6
  | .smem => 0
  | _ => 0

abbrev bufTy : (tb : Table) → Fin (tcTables nBuf tb) → BufTy
  | .hbm, ⟨0, _⟩ => ⟨S14541x400, .f32⟩
  | .hbm, ⟨1, _⟩ => ⟨S474x400, .f32⟩
  | .hbm, ⟨2, _⟩ => ⟨S474x400, .f32⟩
  | .hbm, ⟨3, _⟩ => ⟨S1, .f32⟩
  | .hbm, ⟨4, _⟩ => ⟨S32x2, .i32⟩
  | .hbm, ⟨5, _⟩ => ⟨S4x14505, .i32⟩
  | .hbm, ⟨6, _⟩ => ⟨S32x1, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i1⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S32x1, .i32⟩
  | .hbm, ⟨16, _⟩ => ⟨S32x400, .f32⟩
  | .hbm, ⟨17, _⟩ => ⟨S32x1, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S32x1, .i32⟩
  | .hbm, ⟨27, _⟩ => ⟨S32x400, .f32⟩
  | .hbm, ⟨28, _⟩ => ⟨S32x1, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i1⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .i32⟩
  | .hbm, ⟨37, _⟩ => ⟨S32x1, .i32⟩
  | .hbm, ⟨38, _⟩ => ⟨S32x400, .f32⟩
  | .hbm, ⟨39, _⟩ => ⟨S32x400, .f32⟩
  | .hbm, ⟨40, _⟩ => ⟨S1x14505, .i32⟩
  | .hbm, ⟨41, _⟩ => ⟨S14505, .i32⟩
  | .hbm, ⟨42, _⟩ => ⟨S_, .i32⟩
  | .hbm, ⟨43, _⟩ => ⟨S14505, .i32⟩
  | .hbm, ⟨44, _⟩ => ⟨S14505, .i1⟩
  | .hbm, ⟨45, _⟩ => ⟨S_, .i32⟩
  | .hbm, ⟨46, _⟩ => ⟨S14505, .i32⟩
  | .hbm, ⟨47, _⟩ => ⟨S14505, .i32⟩
  | .hbm, ⟨48, _⟩ => ⟨S14505, .i32⟩
  | .hbm, ⟨49, _⟩ => ⟨S14505x1, .i32⟩
  | .hbm, ⟨50, _⟩ => ⟨S14505x400, .f32⟩
  | .hbm, ⟨51, _⟩ => ⟨S32x14505, .f32⟩
  | .hbm, ⟨52, _⟩ => ⟨S1x1, .f32⟩
  | .hbm, ⟨53, _⟩ => ⟨S32x14505, .f32⟩
  | .hbm, ⟨54, _⟩ => ⟨S32x14505, .f32⟩
  | .local _ .vmem, ⟨0, _⟩ => ⟨S32x400, .f32⟩
  | .local _ .vmem, ⟨1, _⟩ => ⟨S32x400, .f32⟩
  | .local _ .vmem, ⟨2, _⟩ => ⟨S128x400, .f32⟩
  | .local _ .vmem, ⟨3, _⟩ => ⟨S128x400, .f32⟩
  | .local _ .vmem, ⟨4, _⟩ => ⟨S32x128, .f32⟩
  | .local _ .vmem, ⟨5, _⟩ => ⟨S32x128, .f32⟩
  | _, _ => ⟨S14541x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![114], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x400 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S32x2_S32x1_0_0 : S32x2.Slices ![0, 0] S32x1
  shapeCasts_S32x1_S32 : S32x1.ShapeCasts S32
  bcast_S_S32 : S_.BroadcastsInDim S32 (![] : Fin 0 → Fin S32.rank)
  bcast_S32_S32x1_0 : S32.BroadcastsInDim S32x1 (![0] : Fin 1 → Fin S32x1.rank)
  slices_S32x2_S32x1_0_1 : S32x2.Slices ![0, 1] S32x1
  slices_S4x14505_S1x14505_0_0 : S4x14505.Slices ![0, 0] S1x14505
  shapeCasts_S1x14505_S14505 : S1x14505.ShapeCasts S14505
  bcast_S_S14505 : S_.BroadcastsInDim S14505 (![] : Fin 0 → Fin S14505.rank)
  bcast_S14505_S14505x1_0 : S14505.BroadcastsInDim S14505x1 (![0] : Fin 1 → Fin S14505x1.rank)
  inb_S32x400_S32x400_0_0 : ∀ a, (![0, 0] : Fin 2 → Nat) a + S32x400.size a ≤ S32x400.size a
  h_S32x400 : 0 < S32x400.numel
  shapeCasts_S32x400_S32x400 : S32x400.ShapeCasts S32x400
  inb_S128x400_S128x400_0_0 : ∀ a, (![0, 0] : Fin 2 → Nat) a + S128x400.size a ≤ S128x400.size a
  h_S128x400 : 0 < S128x400.numel
  shapeCasts_S128x400_S128x400 : S128x400.ShapeCasts S128x400
  shapeCasts_S128x400_S1x128x400 : S128x400.ShapeCasts S1x128x400
  shapeCasts_S32x400_S32x1x400 : S32x400.ShapeCasts S32x1x400
  broadcasts_S1x128x400_S32x128x400 : S1x128x400.Broadcasts S32x128x400
  broadcasts_S32x1x400_S32x128x400 : S32x1x400.Broadcasts S32x128x400
  reduces_S32x128x400_S32x128 : S32x128x400.Reduces [2] S32x128
  inb_S32x128_S32x128_0_0 : ∀ a, (![0, 0] : Fin 2 → Nat) a + S32x128.size a ≤ S32x128.size a
  h_S32x128 : 0 < S32x128.numel
  bcast_S1_S1x1_1 : S1.BroadcastsInDim S1x1 (![1] : Fin 1 → Fin S1x1.rank)
  bcast_S1x1_S32x14505_0_1 : S1x1.BroadcastsInDim S32x14505 (![0, 1] : Fin 2 → Fin S32x14505.rank)
  gather_S14541x400_S32x1_S32x400_1_0_n_n_0_1_1400_wf : GatherDims.WF S14541x400 S32x1 S32x400 [1] [0] [] [0] [] 1 ![1, 400]
  gather_S474x400_S32x1_S32x400_1_0_n_n_0_1_1400_wf : GatherDims.WF S474x400 S32x1 S32x400 [1] [0] [] [0] [] 1 ![1, 400]
  gather_S14541x400_S14505x1_S14505x400_1_0_n_n_0_1_1400_wf : GatherDims.WF S14541x400 S14505x1 S14505x400 [1] [0] [] [0] [] 1 ![1, 400]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x400.size a ≤ S32x400.size a
  hwx0_0 : ∀ i : grid0.Coords, EltTy.bits .f32 = 32 ∨ (Rect.block (s := S32x400) S32x400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x400.size a ≤ S32x400.size a
  hwx0_1 : ∀ i : grid0.Coords, EltTy.bits .f32 = 32 ∨ (Rect.block (s := S32x400) S32x400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S128x400.size a < S14505x400.size a
  hwx0_2 : ∀ i : grid0.Coords, EltTy.bits .f32 = 32 ∨ (Rect.unit (s := S14505x400) (fun a => cc0_transform_2 i a * S128x400.size a) (fun a => (Pipeline.Clip.of (cc0_transform_2 i a) (S128x400.size a) (S14505x400.size a)).extent (S128x400.size a)) fun a => Pipeline.Clip.inb (Pipeline.Clip.ok_of (hstart0_2 i a))).WholeWords (EltTy.packing .f32)
  hwxs0_2 : ∀ i : grid0.Coords, EltTy.bits .f32 = 32 ∨ (Rect.unit (s := S128x400) (fun _ => 0) (fun a => (Pipeline.Clip.of (cc0_transform_2 i a) (S128x400.size a) (S14505x400.size a)).extent (S128x400.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x128.size a < S32x14505.size a
  hwx0_3 : ∀ i : grid0.Coords, EltTy.bits .f32 = 32 ∨ (Rect.unit (s := S32x14505) (fun a => cc0_transform_3 i a * S32x128.size a) (fun a => (Pipeline.Clip.of (cc0_transform_3 i a) (S32x128.size a) (S32x14505.size a)).extent (S32x128.size a)) fun a => Pipeline.Clip.inb (Pipeline.Clip.ok_of (hstart0_3 i a))).WholeWords (EltTy.packing .f32)
  hwxs0_3 : ∀ i : grid0.Coords, EltTy.bits .f32 = 32 ∨ (Rect.unit (s := S32x128) (fun _ => 0) (fun a => (Pipeline.Clip.of (cc0_transform_3 i a) (S32x128.size a) (S32x14505.size a)).extent (S32x128.size a)) fun a => (Nat.zero_add _).trans_le (Pipeline.Clip.extent_le (Pipeline.Clip.ok_of (hstart0_3 i a)))).WholeWords (EltTy.packing .f32)

variable [Facts₀]

def gather_S14541x400_S32x1_S32x400_1_0_n_n_0_1_1400 : GatherDims S14541x400 S32x1 S32x400 where
  offsetDims := [1]
  collapsedSliceDims := [0]
  operandBatchingDims := []
  startIndicesBatchingDims := []
  startIndexMap := [0]
  indexVectorDim := 1
  sliceSizes := ![1, 400]
  wf := gather_S14541x400_S32x1_S32x400_1_0_n_n_0_1_1400_wf
def gather_S474x400_S32x1_S32x400_1_0_n_n_0_1_1400 : GatherDims S474x400 S32x1 S32x400 where
  offsetDims := [1]
  collapsedSliceDims := [0]
  operandBatchingDims := []
  startIndicesBatchingDims := []
  startIndexMap := [0]
  indexVectorDim := 1
  sliceSizes := ![1, 400]
  wf := gather_S474x400_S32x1_S32x400_1_0_n_n_0_1_1400_wf
def gather_S14541x400_S14505x1_S14505x400_1_0_n_n_0_1_1400 : GatherDims S14541x400 S14505x1 S14505x400 where
  offsetDims := [1]
  collapsedSliceDims := [0]
  operandBatchingDims := []
  startIndicesBatchingDims := []
  startIndexMap := [0]
  indexVectorDim := 1
  sliceSizes := ![1, 400]
  wf := gather_S14541x400_S14505x1_S14505x400_1_0_n_n_0_1_1400_wf

abbrev win0_0 : Pipeline.Window sig grid0 :=
  Pipeline.Window.ofSpec (Memref.whole main_v27) S32x400.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v26) S32x400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v36) S128x400.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v37) S32x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S14541x400 : Shape := ⟨2, ![14541, 400]⟩
abbrev S474x400 : Shape := ⟨2, ![474, 400]⟩
abbrev S1 : Shape := ⟨1, ![1]⟩
abbrev S32x2 : Shape := ⟨2, ![32, 2]⟩
abbrev S4x14505 : Shape := ⟨2, ![4, 14505]⟩
abbrev S32x1 : Shape := ⟨2, ![32, 1]⟩
abbrev S32 : Shape := ⟨1, ![32]⟩
abbrev S_ : Shape := ⟨0, ![]⟩
abbrev S32x400 : Shape := ⟨2, ![32, 400]⟩
abbrev S32x1x400 : Shape := ⟨3, ![32, 1, 400]⟩
abbrev S1x14505 : Shape := ⟨2, ![1, 14505]⟩
abbrev S14505 : Shape := ⟨1, ![14505]⟩
abbrev S14505x1 : Shape := ⟨2, ![14505, 1]⟩
abbrev S14505x400 : Shape := ⟨2, ![14505, 400]⟩
abbrev S1x14505x400 : Shape := ⟨3, ![1, 14505, 400]⟩
abbrev S32x14505x400 : Shape := ⟨3, ![32, 14505, 400]⟩
abbrev S32x14505 : Shape := ⟨2, ![32, 14505]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S14541x400, .f32⟩
  | .hbm, ⟨1, _⟩ => ⟨S474x400, .f32⟩
  | .hbm, ⟨2, _⟩ => ⟨S474x400, .f32⟩
  | .hbm, ⟨3, _⟩ => ⟨S1, .f32⟩
  | .hbm, ⟨4, _⟩ => ⟨S32x2, .i32⟩
  | .hbm, ⟨5, _⟩ => ⟨S4x14505, .i32⟩
  | .hbm, ⟨6, _⟩ => ⟨S32x1, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i1⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S32x1, .i32⟩
  | .hbm, ⟨16, _⟩ => ⟨S32x400, .f32⟩
  | .hbm, ⟨17, _⟩ => ⟨S32x1, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S32x1, .i32⟩
  | .hbm, ⟨27, _⟩ => ⟨S32x400, .f32⟩
  | .hbm, ⟨28, _⟩ => ⟨S32x1, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i1⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .i32⟩
  | .hbm, ⟨37, _⟩ => ⟨S32x1, .i32⟩
  | .hbm, ⟨38, _⟩ => ⟨S32x400, .f32⟩
  | .hbm, ⟨39, _⟩ => ⟨S32x400, .f32⟩
  | .hbm, ⟨40, _⟩ => ⟨S32x1x400, .f32⟩
  | .hbm, ⟨41, _⟩ => ⟨S32x1x400, .f32⟩
  | .hbm, ⟨42, _⟩ => ⟨S1x14505, .i32⟩
  | .hbm, ⟨43, _⟩ => ⟨S14505, .i32⟩
  | .hbm, ⟨44, _⟩ => ⟨S_, .i32⟩
  | .hbm, ⟨45, _⟩ => ⟨S14505, .i32⟩
  | .hbm, ⟨46, _⟩ => ⟨S14505, .i1⟩
  | .hbm, ⟨47, _⟩ => ⟨S_, .i32⟩
  | .hbm, ⟨48, _⟩ => ⟨S14505, .i32⟩
  | .hbm, ⟨49, _⟩ => ⟨S14505, .i32⟩
  | .hbm, ⟨50, _⟩ => ⟨S14505, .i32⟩
  | .hbm, ⟨51, _⟩ => ⟨S14505x1, .i32⟩
  | .hbm, ⟨52, _⟩ => ⟨S14505x400, .f32⟩
  | .hbm, ⟨53, _⟩ => ⟨S1x14505x400, .f32⟩
  | .hbm, ⟨54, _⟩ => ⟨S32x14505x400, .f32⟩
  | .hbm, ⟨55, _⟩ => ⟨S32x14505x400, .f32⟩
  | .hbm, ⟨56, _⟩ => ⟨S32x14505x400, .f32⟩
  | .hbm, ⟨57, _⟩ => ⟨S32x14505x400, .f32⟩
  | .hbm, ⟨58, _⟩ => ⟨S32x14505x400, .f32⟩
  | .hbm, ⟨59, _⟩ => ⟨S32x14505x400, .f32⟩
  | .hbm, ⟨60, _⟩ => ⟨S_, .f32⟩
  | .hbm, ⟨61, _⟩ => ⟨S32x14505x400, .f32⟩
  | .hbm, ⟨62, _⟩ => ⟨S32x14505x400, .f32⟩
  | .hbm, ⟨63, _⟩ => ⟨S_, .f32⟩
  | .hbm, ⟨64, _⟩ => ⟨S32x14505, .f32⟩
  | .hbm, ⟨65, _⟩ => ⟨S32x14505x400, .f32⟩
  | .hbm, ⟨66, _⟩ => ⟨S32x14505x400, .f32⟩
  | .hbm, ⟨67, _⟩ => ⟨S32x14505x400, .f32⟩
  | .hbm, ⟨68, _⟩ => ⟨S_, .f32⟩
  | .hbm, ⟨69, _⟩ => ⟨S32x14505, .f32⟩
  | .hbm, ⟨70, _⟩ => ⟨S1x1, .f32⟩
  | .hbm, ⟨71, _⟩ => ⟨S32x14505, .f32⟩
  | .hbm, ⟨72, _⟩ => ⟨S32x14505, .f32⟩
  | .hbm, ⟨73, _⟩ => ⟨S_, .f32⟩
  | .hbm, ⟨74, _⟩ => ⟨S32x14505, .f32⟩
  | .hbm, ⟨75, _⟩ => ⟨S32x14505, .f32⟩
  | .hbm, ⟨76, _⟩ => ⟨S32x14505, .f32⟩
  | _, _ => ⟨S14541x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call0_cst : Ref sig .tc := ⟨.hbm, 60, rfl⟩
abbrev main_call0_v0 : Ref sig .tc := ⟨.hbm, 61, rfl⟩
abbrev main_v46 : Ref sig .tc := ⟨.hbm, 62, rfl⟩
abbrev main_cst : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]

class Facts₀ : Prop where
  slices_S32x2_S32x1_0_0 : S32x2.Slices ![0, 0] S32x1
  shapeCasts_S32x1_S32 : S32x1.ShapeCasts S32
  bcast_S_S32 : S_.BroadcastsInDim S32 (![] : Fin 0 → Fin S32.rank)
  bcast_S32_S32x1_0 : S32.BroadcastsInDim S32x1 (![0] : Fin 1 → Fin S32x1.rank)
  slices_S32x2_S32x1_0_1 : S32x2.Slices ![0, 1] S32x1
  bcast_S32x400_S32x1x400_0_2 : S32x400.BroadcastsInDim S32x1x400 (![0, 2] : Fin 2 → Fin S32x1x400.rank)
  slices_S4x14505_S1x14505_0_0 : S4x14505.Slices ![0, 0] S1x14505
  shapeCasts_S1x14505_S14505 : S1x14505.ShapeCasts S14505
  bcast_S_S14505 : S_.BroadcastsInDim S14505 (![] : Fin 0 → Fin S14505.rank)
  bcast_S14505_S14505x1_0 : S14505.BroadcastsInDim S14505x1 (![0] : Fin 1 → Fin S14505x1.rank)
  bcast_S14505x400_S1x14505x400_1_2 : S14505x400.BroadcastsInDim S1x14505x400 (![1, 2] : Fin 2 → Fin S1x14505x400.rank)
  bcast_S1x14505x400_S32x14505x400_0_1_2 : S1x14505x400.BroadcastsInDim S32x14505x400 (![0, 1, 2] : Fin 3 → Fin S32x14505x400.rank)
  bcast_S32x1x400_S32x14505x400_0_1_2 : S32x1x400.BroadcastsInDim S32x14505x400 (![0, 1, 2] : Fin 3 → Fin S32x14505x400.rank)
  bcast_S_S32x14505x400 : S_.BroadcastsInDim S32x14505x400 (![] : Fin 0 → Fin S32x14505x400.rank)
  reducesTo_S32x14505x400_S32x14505_d2 : S32x14505x400.ReducesTo [2] S32x14505
  h_S_ : 0 < S_.numel
  bcast_S1_S1x1_1 : S1.BroadcastsInDim S1x1 (![1] : Fin 1 → Fin S1x1.rank)
  bcast_S1x1_S32x14505_0_1 : S1x1.BroadcastsInDim S32x14505 (![0, 1] : Fin 2 → Fin S32x14505.rank)
  bcast_S_S32x14505 : S_.BroadcastsInDim S32x14505 (![] : Fin 0 → Fin S32x14505.rank)
  gather_S14541x400_S32x1_S32x400_1_0_n_n_0_1_1400_wf : GatherDims.WF S14541x400 S32x1 S32x400 [1] [0] [] [0] [] 1 ![1, 400]
  gather_S474x400_S32x1_S32x400_1_0_n_n_0_1_1400_wf : GatherDims.WF S474x400 S32x1 S32x400 [1] [0] [] [0] [] 1 ![1, 400]
  gather_S14541x400_S14505x1_S14505x400_1_0_n_n_0_1_1400_wf : GatherDims.WF S14541x400 S14505x1 S14505x400 [1] [0] [] [0] [] 1 ![1, 400]

variable [Facts₀]

def gather_S14541x400_S32x1_S32x400_1_0_n_n_0_1_1400 : GatherDims S14541x400 S32x1 S32x400 where
  offsetDims := [1]
  collapsedSliceDims := [0]
  operandBatchingDims := []
  startIndicesBatchingDims := []
  startIndexMap := [0]
  indexVectorDim := 1
  sliceSizes := ![1, 400]
  wf := gather_S14541x400_S32x1_S32x400_1_0_n_n_0_1_1400_wf
def gather_S474x400_S32x1_S32x400_1_0_n_n_0_1_1400 : GatherDims S474x400 S32x1 S32x400 where
  offsetDims := [1]
  collapsedSliceDims := [0]
  operandBatchingDims := []
  startIndicesBatchingDims := []
  startIndexMap := [0]
  indexVectorDim := 1
  sliceSizes := ![1, 400]
  wf := gather_S474x400_S32x1_S32x400_1_0_n_n_0_1_1400_wf
def gather_S14541x400_S14505x1_S14505x400_1_0_n_n_0_1_1400 : GatherDims S14541x400 S14505x1 S14505x400 where
  offsetDims := [1]
  collapsedSliceDims := [0]
  operandBatchingDims := []
  startIndicesBatchingDims := []
  startIndexMap := [0]
  indexVectorDim := 1
  sliceSizes := ![1, 400]
  wf := gather_S14541x400_S14505x1_S14505x400_1_0_n_n_0_1_1400_wf

class Facts : Prop extends Facts₀ where

variable [Facts]
-- ==== Proof.KBody.lean ====
/-
  The kernel's body on whole staging buffers, and the frame of its program, at any float instance.

  One grid point scores all 32 query boxes against one block of 128 candidate rows: the body loads the query-centre block,
  the half-width block and the candidate block whole, computes the 32 × 128 score block as one pure function of the three
  (the generated payload), and stores it whole. The candidate array has 14505 rows, so the last of the 114 blocks holds
  41 rows of the array and 87 rows of words nothing names; the score block's columns past the array's end are computed
  from those rows and are never written back. The frame needs nothing of the result's contents, so the result window is
  forgotten in the body obligation: the argument arrays are no window's array and end as launched.
-/
import proofs.«107685_j54176717471998_1_alg».proof.Proof.Gen.Kernel.Frame
import proofs.«107685_j54176717471998_1_alg».proof.Proof.Gen.Kernel.Skeleton
import Idealize.ShloMosaic.Lib.Pipeline.Kit
import Idealize.ShloMosaic.Lib.Pipeline.FrameBody
import Idealize.ShloMosaic.Lib.Pipeline.FrameSuffix
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each a whole staging buffer -/

abbrev rQ : Rect S32x400 := Rect.unit (s := S32x400) ![0, 0] S32x400.size inb_S32x400_S32x400_0_0
abbrev rC : Rect S128x400 := Rect.unit (s := S128x400) ![0, 0] S128x400.size inb_S128x400_S128x400_0_0
abbrev rO : Rect S32x128 := Rect.unit (s := S32x128) ![0, 0] S32x128.size inb_S32x128_S32x128_0_0

/-- The score block the body leaves in the result's buffer, from what the three input buffers hold: its one store. -/
def scoreBlk (q w : Vec F S32x400 .f32) (x : Vec F S128x400 .f32) : Vec F S32x128 .f32 :=
  View.canon [⟨rO, k0_pay1 (View.ld q rQ) (View.ld w rQ) (View.ld x rC)⟩]

/-- The one store covers the buffer. -/
theorem cover_score (p0 : Vec F S32x128 .f32) (y : S32x128.Idx) :
    ∃ pc ∈ ([⟨rO, p0⟩] : List (View.Piece (Elt F) S32x128 .f32)), y ∈ pc.1.set :=
  View.cover_of_tiled [⟨rO, p0⟩] S32x128.size (by rfl) y

/-! ## The body's triple -/

set_option maxHeartbeats 1000000 in
/-- On whole staging memrefs, the inputs' at contents `q`, `w`, `x` and the result's at anything, the body runs to
    the continuation holding the inputs' as they were and the result's at the score block of the three. -/
theorem sound_kernel (c : Dev nD) (E : Set ℕ) (i : grid0.Coords)
    (arg1 : Memref sig .tc .vmem S32x400 .f32) (harg1 : arg1.IsWhole) (arg2 : Memref sig .tc .vmem S32x400 .f32) (harg2 : arg2.IsWhole)
    (arg3 : Memref sig .tc .vmem S128x400 .f32) (harg3 : arg3.IsWhole) (arg4 : Memref sig .tc .vmem S32x128 .f32) (harg4 : arg4.IsWhole)
    (q w : Vec F S32x400 .f32) (x : Vec F S128x400 .f32) (K : PUnit → sProp 𝕄) :
    iprop(owns (c : Thread nD τ) arg1 fullShare q ∗ owns (c : Thread nD τ) arg2 fullShare w ∗ owns (c : Thread nD τ) arg3 fullShare x
        ∗ (∃ d, owns (c : Thread nD τ) arg4 fullShare d)
        ∗ (iprop(owns (c : Thread nD τ) arg1 fullShare q ∗ owns (c : Thread nD τ) arg2 fullShare w ∗ owns (c : Thread nD τ) arg3 fullShare x
            ∗ owns (c : Thread nD τ) arg4 fullShare (scoreBlk q w x)) -∗ K ⟨⟩))
      ⊢ wp frame (wpE (defs₀ (F := F)) Variants.none c none) E (cc0__l1_margin_kernel i arg1 harg1 arg2 harg2 arg3 harg3 arg4 harg4) K := by
  simp only [cc0__l1_margin_kernel_eq_skeleton]; unfold cc0__l1_margin_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_score _)

/-! ## The proof data -/

/-- The candidate block at point `t` padded out to its 128 rows: the array's rows where the block lies inside the array,
    the zero word past its end (rows nothing reads back: the result's columns over them are never written back). -/
def cand128 (c : Dev nD) (t : Fin cfg0.N) : S128x400.Idx → Elt F .f32 :=
  win0_2.fill (grid0.coords t) (fun _ => Scalar.ofBits .f32 0#32) (iblk m c 2 t)

/-- The proof data of the one pipeline on core `c`: the arrays as the region finds them; after the body at point `t` the
    two query-side buffers at their blocks, the candidate buffer at its padded block, the result buffer at the score block
    of the three; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => cand128 m c t
    | ⟨3, _⟩ => scoreBlk (iblk m c 0 t) (iblk m c 1 t) (cand128 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = cand128 m c t := by dsimp only [dats]
theorem after_3 (c : Dev nD) (t : Fin cfg0.N) :
    (dats m 0 c).after 3 t = scoreBlk (iblk m c 0 t) (iblk m c 1 t) (cand128 m c t) := by dsimp only [dats]

/-- The query-side buffers hold their blocks at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The candidate buffer is fetched at every point: it holds the block's rows inside the array, and `d` past them. -/
theorem before_2 (c : Dev nD) (t : Fin cfg0.N) (d) :
    (dats m 0 c).before 2 t d = win0_2.fill (grid0.coords t) d (iblk m c 2 t) := by
  unfold Dat.before; rw [if_pos (fetch0_2 t)]; rfl

/-- The result's window is never fetched, -/
theorem fetch_3 : ∀ t : Fin cfg0.N, (cfg0.win 3).fetch t = false :=
  (by decide +kernel : ∀ t : Fin grid0.N, win0_3.fetch t = false)

/-- and is written back at every point, so the body finds its buffer at contents nothing names. -/
theorem before_3 (c : Dev nD) (t : Fin cfg0.N) (d) : (dats m 0 c).before 3 t d = d := by
  unfold Dat.before
  rw [if_neg (by rw [fetch_3 t]; exact Bool.false_ne_true)]
  by_cases h0 : t.val = 0
  · rw [if_pos h0]
  · rw [if_neg h0]; exact if_pos (flush0_3 _)

/-! ## The body obligation with the result window forgotten -/

/-- The windows the frame forgets: the result's. -/
abbrev fgtOut : Fin cfg0.W → Bool := fun | 0 => false | 1 => false | 2 => false | 3 => true | ⟨_ + 4, h⟩ => absurd h (Nat.not_lt.2 (Nat.le_add_left _ _))

/-- At every point the three input buffers arrive holding their blocks (the candidate's filled out with `d` past the
    array's end) and leave unchanged, which on the rows the fetch moves is the padded block; of the result's buffer nothing
    is asked. -/
theorem body_obligation_fgt (c : Dev nD) :
    BodyObligationLoose (dats (F := F) m 0 c) (defs₀ (F := F)) Variants.none () Set.univ fgtOut := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%X3, H3⟩⟩
  rw [before_0 m c t d0, before_1 m c t d1, before_2 m c t d2]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (iblk m c 0 t) (iblk m c 1 t) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after_0]; iexact H0
  isplitl [H1]; · rw [after_1]; iexact H1
  isplitl [H2]
  · iexists d2
    rw [after_2, show win0_2.cut (grid0.coords t) (cand128 m c t) = iblk m c 2 t from win0_2.cut_fill _ _ _]
    iexact H2
  · iexists _; iexact H3

/-! ## The run and the frame -/

/-- The buffers the host lines after the region write: the two broadcasts of the margin and the final sum. -/
abbrev tailW : Finset (Ref sig .tc) := Finset.univ.filter fun b => b = main_v38 ∨ b = main_v39 ∨ b = main_v40

theorem tail_writes : ∀ ops ∈ ([hostOps1] : List (List (HloOp τ sig (Elt F)))), ∀ op ∈ ops,
    ∀ b : Ref sig .tc, Proc.devRef .tc b ∈ op.writes → b ∈ tailW := by
  intro ops hops op hop b hb
  simp only [List.mem_cons, List.mem_nil_iff, or_false] at hops
  rcases hops with rfl
  simp only [hostOps1, List.mem_cons, List.mem_nil_iff, or_false] at hop
  rcases hop with rfl | rfl | rfl
  · simp only [StableHlo.unary_writes, Finset.mem_singleton] at hb
    have hb' : b = main_v38 := by by_contra hne; exact StableHlo.devRef_ne_of_ne hne hb
    exact Finset.mem_filter.mpr ⟨Finset.mem_univ _, Or.inl hb'⟩
  · simp only [StableHlo.unary_writes, Finset.mem_singleton] at hb
    have hb' : b = main_v39 := by by_contra hne; exact StableHlo.devRef_ne_of_ne hne hb
    exact Finset.mem_filter.mpr ⟨Finset.mem_univ _, Or.inr (Or.inl hb')⟩
  · simp only [StableHlo.binary_writes, Finset.mem_singleton] at hb
    have hb' : b = main_v40 := by by_contra hne; exact StableHlo.devRef_ne_of_ne hne hb
    exact Finset.mem_filter.mpr ⟨Finset.mem_univ _, Or.inr (Or.inr hb')⟩

set_option backward.isDefEq.respectTransparency.types false in
/-- At the compiled mesh, for any values, from any memory with zero counters: every weakly fair execution of @main on the
    TensorCores terminates, and every unscoped buffer that is no window's array and that the host tail does not write
    ends as the region found it. -/
theorem run_frame : θ_run defs (onTc (τ := τ) (main (F := F))) (s₀ m ρ)
    (Pipeline.RDat.FramePostR cfg0 (fun c => (dats m 0 c).toRForget fgtOut) tailW (fun c b => V0 m c (Proc.devRef .tc b))) :=
  Pipeline.RDat.θ_run_frame_around_T cfgs (0 : Fin 1) launch0 defs₀ Variants.none (fun c => (dats m 0 c).toRForget fgtOut) tailW m ρ main
    (hbody := fun c => (body_obligation_fgt m c).toRForget)
    (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := fun c w => A_eq m c w) (hΦ := fun _ _ => rfl)

/-- THE FRAME at any float instance: the six argument arrays are unscoped, no window's array and not written by the
    host tail, and no host line before the region writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c),
     ((h c).2 main_arg4 (Finset.mem_sdiff.mpr ⟨Pipeline.mem_restRefs_of main_arg4 (by decide) (by decide), by decide⟩)).trans (V_main_arg4 m c),
     ((h c).2 main_arg5 (Finset.mem_sdiff.mpr ⟨Pipeline.mem_restRefs_of main_arg5 (by decide) (by decide), by decide⟩)).trans (V_main_arg5 m c)⟩)
    (run_frame m ρ)

end Cert.Kernel.Body

end
-- ==== Proof.KIBody.lean ====
/-
  The idealized kernel's body on whole staging buffers, and the frame of its program, at any float instance.

  One grid point scores all 32 query boxes against one block of 128 candidate rows: the body loads the query-centre block,
  the half-width block and the candidate block whole, computes the 32 × 128 score block as one pure function of the three
  (the generated payload), and stores it whole. The candidate array has 14505 rows, so the last of the 114 blocks holds
  41 rows of the array and 87 rows of words nothing names; the score block's columns past the array's end are computed
  from those rows and are never written back. The frame needs nothing of the result's contents, so the result window is
  forgotten in the body obligation: the argument arrays are no window's array and end as launched.
-/
import proofs.«107685_j54176717471998_1_alg».proof.Proof.Gen.KernelIdeal.Frame
import proofs.«107685_j54176717471998_1_alg».proof.Proof.Gen.KernelIdeal.Skeleton
import Idealize.ShloMosaic.Lib.Pipeline.Kit
import Idealize.ShloMosaic.Lib.Pipeline.FrameBody
import Idealize.ShloMosaic.Lib.Pipeline.FrameSuffix
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each a whole staging buffer -/

abbrev rQ : Rect S32x400 := Rect.unit (s := S32x400) ![0, 0] S32x400.size inb_S32x400_S32x400_0_0
abbrev rC : Rect S128x400 := Rect.unit (s := S128x400) ![0, 0] S128x400.size inb_S128x400_S128x400_0_0
abbrev rO : Rect S32x128 := Rect.unit (s := S32x128) ![0, 0] S32x128.size inb_S32x128_S32x128_0_0

/-- The score block the body leaves in the result's buffer, from what the three input buffers hold: its one store. -/
def scoreBlk (q w : Vec F S32x400 .f32) (x : Vec F S128x400 .f32) : Vec F S32x128 .f32 :=
  View.canon [⟨rO, k0_pay1 (View.ld q rQ) (View.ld w rQ) (View.ld x rC)⟩]

/-- The one store covers the buffer. -/
theorem cover_score (p0 : Vec F S32x128 .f32) (y : S32x128.Idx) :
    ∃ pc ∈ ([⟨rO, p0⟩] : List (View.Piece (Elt F) S32x128 .f32)), y ∈ pc.1.set :=
  View.cover_of_tiled [⟨rO, p0⟩] S32x128.size (by rfl) y

/-! ## The body's triple -/

set_option maxHeartbeats 1000000 in
/-- On whole staging memrefs, the inputs' at contents `q`, `w`, `x` and the result's at anything, the body runs to
    the continuation holding the inputs' as they were and the result's at the score block of the three. -/
theorem sound_kernel (c : Dev nD) (E : Set ℕ) (i : grid0.Coords)
    (arg1 : Memref sig .tc .vmem S32x400 .f32) (harg1 : arg1.IsWhole) (arg2 : Memref sig .tc .vmem S32x400 .f32) (harg2 : arg2.IsWhole)
    (arg3 : Memref sig .tc .vmem S128x400 .f32) (harg3 : arg3.IsWhole) (arg4 : Memref sig .tc .vmem S32x128 .f32) (harg4 : arg4.IsWhole)
    (q w : Vec F S32x400 .f32) (x : Vec F S128x400 .f32) (K : PUnit → sProp 𝕄) :
    iprop(owns (c : Thread nD τ) arg1 fullShare q ∗ owns (c : Thread nD τ) arg2 fullShare w ∗ owns (c : Thread nD τ) arg3 fullShare x
        ∗ (∃ d, owns (c : Thread nD τ) arg4 fullShare d)
        ∗ (iprop(owns (c : Thread nD τ) arg1 fullShare q ∗ owns (c : Thread nD τ) arg2 fullShare w ∗ owns (c : Thread nD τ) arg3 fullShare x
            ∗ owns (c : Thread nD τ) arg4 fullShare (scoreBlk q w x)) -∗ K ⟨⟩))
      ⊢ wp frame (wpE (defs₀ (F := F)) Variants.none c none) E (cc0__l1_margin_kernel i arg1 harg1 arg2 harg2 arg3 harg3 arg4 harg4) K := by
  simp only [cc0__l1_margin_kernel_eq_skeleton]; unfold cc0__l1_margin_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_score _)

/-! ## The proof data -/

/-- The candidate block at point `t` padded out to its 128 rows: the array's rows where the block lies inside the array,
    the zero word past its end (rows nothing reads back: the result's columns over them are never written back). -/
def cand128 (c : Dev nD) (t : Fin cfg0.N) : S128x400.Idx → Elt F .f32 :=
  win0_2.fill (grid0.coords t) (fun _ => Scalar.ofBits .f32 0#32) (iblk m c 2 t)

/-- The proof data of the one pipeline on core `c`: the arrays as the region finds them; after the body at point `t` the
    two query-side buffers at their blocks, the candidate buffer at its padded block, the result buffer at the score block
    of the three; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => cand128 m c t
    | ⟨3, _⟩ => scoreBlk (iblk m c 0 t) (iblk m c 1 t) (cand128 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = cand128 m c t := by dsimp only [dats]
theorem after_3 (c : Dev nD) (t : Fin cfg0.N) :
    (dats m 0 c).after 3 t = scoreBlk (iblk m c 0 t) (iblk m c 1 t) (cand128 m c t) := by dsimp only [dats]

/-- The query-side buffers hold their blocks at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The candidate buffer is fetched at every point: it holds the block's rows inside the array, and `d` past them. -/
theorem before_2 (c : Dev nD) (t : Fin cfg0.N) (d) :
    (dats m 0 c).before 2 t d = win0_2.fill (grid0.coords t) d (iblk m c 2 t) := by
  unfold Dat.before; rw [if_pos (fetch0_2 t)]; rfl

/-- The result's window is never fetched, -/
theorem fetch_3 : ∀ t : Fin cfg0.N, (cfg0.win 3).fetch t = false :=
  (by decide +kernel : ∀ t : Fin grid0.N, win0_3.fetch t = false)

/-- and is written back at every point, so the body finds its buffer at contents nothing names. -/
theorem before_3 (c : Dev nD) (t : Fin cfg0.N) (d) : (dats m 0 c).before 3 t d = d := by
  unfold Dat.before
  rw [if_neg (by rw [fetch_3 t]; exact Bool.false_ne_true)]
  by_cases h0 : t.val = 0
  · rw [if_pos h0]
  · rw [if_neg h0]; exact if_pos (flush0_3 _)

/-! ## The body obligation with the result window forgotten -/

/-- The windows the frame forgets: the result's. -/
abbrev fgtOut : Fin cfg0.W → Bool := fun | 0 => false | 1 => false | 2 => false | 3 => true | ⟨_ + 4, h⟩ => absurd h (Nat.not_lt.2 (Nat.le_add_left _ _))

/-- At every point the three input buffers arrive holding their blocks (the candidate's filled out with `d` past the
    array's end) and leave unchanged, which on the rows the fetch moves is the padded block; of the result's buffer nothing
    is asked. -/
theorem body_obligation_fgt (c : Dev nD) :
    BodyObligationLoose (dats (F := F) m 0 c) (defs₀ (F := F)) Variants.none () Set.univ fgtOut := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%X3, H3⟩⟩
  rw [before_0 m c t d0, before_1 m c t d1, before_2 m c t d2]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (iblk m c 0 t) (iblk m c 1 t) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after_0]; iexact H0
  isplitl [H1]; · rw [after_1]; iexact H1
  isplitl [H2]
  · iexists d2
    rw [after_2, show win0_2.cut (grid0.coords t) (cand128 m c t) = iblk m c 2 t from win0_2.cut_fill _ _ _]
    iexact H2
  · iexists _; iexact H3

/-! ## The run and the frame -/

/-- The buffers the host lines after the region write: the two broadcasts of the margin and the final sum. -/
abbrev tailW : Finset (Ref sig .tc) := Finset.univ.filter fun b => b = main_v38 ∨ b = main_v39 ∨ b = main_v40

theorem tail_writes : ∀ ops ∈ ([hostOps1] : List (List (HloOp τ sig (Elt F)))), ∀ op ∈ ops,
    ∀ b : Ref sig .tc, Proc.devRef .tc b ∈ op.writes → b ∈ tailW := by
  intro ops hops op hop b hb
  simp only [List.mem_cons, List.mem_nil_iff, or_false] at hops
  rcases hops with rfl
  simp only [hostOps1, List.mem_cons, List.mem_nil_iff, or_false] at hop
  rcases hop with rfl | rfl | rfl
  · simp only [StableHlo.unary_writes, Finset.mem_singleton] at hb
    have hb' : b = main_v38 := by by_contra hne; exact StableHlo.devRef_ne_of_ne hne hb
    exact Finset.mem_filter.mpr ⟨Finset.mem_univ _, Or.inl hb'⟩
  · simp only [StableHlo.unary_writes, Finset.mem_singleton] at hb
    have hb' : b = main_v39 := by by_contra hne; exact StableHlo.devRef_ne_of_ne hne hb
    exact Finset.mem_filter.mpr ⟨Finset.mem_univ _, Or.inr (Or.inl hb')⟩
  · simp only [StableHlo.binary_writes, Finset.mem_singleton] at hb
    have hb' : b = main_v40 := by by_contra hne; exact StableHlo.devRef_ne_of_ne hne hb
    exact Finset.mem_filter.mpr ⟨Finset.mem_univ _, Or.inr (Or.inr hb')⟩

set_option backward.isDefEq.respectTransparency.types false in
/-- At the compiled mesh, for any values, from any memory with zero counters: every weakly fair execution of @main on the
    TensorCores terminates, and every unscoped buffer that is no window's array and that the host tail does not write
    ends as the region found it. -/
theorem run_frame : θ_run defs (onTc (τ := τ) (main (F := F))) (s₀ m ρ)
    (Pipeline.RDat.FramePostR cfg0 (fun c => (dats m 0 c).toRForget fgtOut) tailW (fun c b => V0 m c (Proc.devRef .tc b))) :=
  Pipeline.RDat.θ_run_frame_around_T cfgs (0 : Fin 1) launch0 defs₀ Variants.none (fun c => (dats m 0 c).toRForget fgtOut) tailW m ρ main
    (hbody := fun c => (body_obligation_fgt m c).toRForget)
    (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := fun c w => A_eq m c w) (hΦ := fun _ _ => rfl)

/-- THE FRAME at any float instance: the six argument arrays are unscoped, no window's array and not written by the
    host tail, and no host line before the region writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c),
     ((h c).2 main_arg4 (Finset.mem_sdiff.mpr ⟨Pipeline.mem_restRefs_of main_arg4 (by decide) (by decide), by decide⟩)).trans (V_main_arg4 m c),
     ((h c).2 main_arg5 (Finset.mem_sdiff.mpr ⟨Pipeline.mem_restRefs_of main_arg5 (by decide) (by decide), by decide⟩)).trans (V_main_arg5 m c)⟩)
    (run_frame m ρ)

end Cert.KernelIdeal.Body

end
-- ==== Proof.BoxScore.lean ====
/-
  The score both programs compute, as ONE function of the gathered arrays, on the extended reals.

  A query box has centre `q` and half-width `w` per feature; a candidate point has coordinate `x`. With `d = |x − q|`,
  the distance outside the box along that feature is `max (d − w) 0` and the distance inside is `min d w`. The score of
  a query against a candidate is `g − Σₖ outside − c · Σₖ inside`, the sums over the 400 features.
  The kernel groups it `g + ((0 − Σ outside) − c · Σ inside)`, the reference `(g − Σ outside) − c · Σ |inside|`.
  Addition on the extended reals is associative, so the two groupings are one value whatever the summands are; and
  `inside` is non-negative as soon as the half-width is (`d ≥ 0` always), so its absolute value is itself.
-/
import Idealize.ShloMosaic.PureOps.Ideal
import Idealize.ShloMosaic.Lib.ValueIdx

noncomputable section

namespace Cert.BoxScore

open Idealize.ShloMosaic Idealize.ShloMosaic.ValueIdx

/-- `|x|` as both programs spell it on the extended reals: the larger of `x` and `−x`. -/
def eabs (x : EReal) : EReal := max x (-x)

theorem eabs_nonneg (x : EReal) : 0 ≤ eabs x := by
  unfold eabs
  rcases le_total 0 x with h | h
  · exact le_max_of_le_left h
  · exact le_max_of_le_right (by rw [EReal.le_neg, neg_zero]; exact h)

theorem eabs_of_nonneg {x : EReal} (h : 0 ≤ x) : eabs x = x := by
  unfold eabs
  refine max_eq_left (le_trans ?_ h)
  rw [EReal.neg_le, neg_zero]; exact h

/-- The distance from `x` to the box `[q − w, q + w]`: how far `|x − q|` exceeds the half-width, or zero. -/
def outside (x q w : EReal) : EReal := max (eabs (x - q) - w) 0

/-- The distance travelled inside the box: `|x − q|` capped at the half-width. -/
def inside (x q w : EReal) : EReal := min (eabs (x - q)) w

/-- Under a non-negative half-width the inside distance is non-negative, hence its own absolute value. -/
theorem eabs_inside {w : EReal} (hw : 0 ≤ w) (x q : EReal) : eabs (inside x q w) = inside x q w :=
  eabs_of_nonneg (le_min (eabs_nonneg _) hw)

/-- The two groupings of `g − A − B`: associativity of the sum, no finiteness asked. -/
theorem regroup (g A B : EReal) : g + ((0 - A) - B) = (g - A) - B := by
  simp only [sub_eq_add_neg, zero_add, add_assoc]

/-- The score array in the kernel's grouping: query `i 0` against candidate `i 1`. -/
def score (c : EReal) (g : (⟨1, ![1]⟩ : Shape).Idx → EReal) (q w : (⟨2, ![32, 400]⟩ : Shape).Idx → EReal)
    (x : (⟨2, ![14505, 400]⟩ : Shape).Idx → EReal) : (⟨2, ![32, 14505]⟩ : Shape).Idx → EReal :=
  fun i => g (ix1 0) + ((0 - ∑ k : Fin 400, outside (x (ix2 (i 1) k)) (q (ix2 (i 0) k)) (w (ix2 (i 0) k)))
    - c * ∑ k : Fin 400, inside (x (ix2 (i 1) k)) (q (ix2 (i 0) k)) (w (ix2 (i 0) k)))

/-- The same in the reference's grouping, with its absolute value around the inside distance. -/
def scoreRef (c : EReal) (g : (⟨1, ![1]⟩ : Shape).Idx → EReal) (q w : (⟨2, ![32, 400]⟩ : Shape).Idx → EReal)
    (x : (⟨2, ![14505, 400]⟩ : Shape).Idx → EReal) : (⟨2, ![32, 14505]⟩ : Shape).Idx → EReal :=
  fun i => (g (ix1 0) - ∑ k : Fin 400, outside (x (ix2 (i 1) k)) (q (ix2 (i 0) k)) (w (ix2 (i 0) k)))
    - c * ∑ k : Fin 400, eabs (inside (x (ix2 (i 1) k)) (q (ix2 (i 0) k)) (w (ix2 (i 0) k)))

/-- With every half-width non-negative the two are one array. -/
theorem scoreRef_eq_score (c : EReal) (g : (⟨1, ![1]⟩ : Shape).Idx → EReal) (q w : (⟨2, ![32, 400]⟩ : Shape).Idx → EReal)
    (x : (⟨2, ![14505, 400]⟩ : Shape).Idx → EReal) (hw : ∀ j, 0 ≤ w j) : scoreRef c g q w x = score c g q w x := by
  funext i
  simp only [scoreRef, score, regroup, eabs_inside (hw _)]

end Cert.BoxScore

end
-- ==== Proof.KIScore.lean ====
/-
  The score block the body stores, read at an index on the extended reals.

  The body broadcasts the 128 × 400 candidate block over the 32 queries and the two 32 × 400 query-side blocks over the 128
  candidates; those broadcasts and the unit-axis casts before them only rename coordinates. Every other operation acts
  entry by entry except the two sums over the 400 features. So column `r` of the score block depends on row `r` of the
  candidate block only: its entry at query `b` is `(0 − Σₖ outside) − c · Σₖ inside` of the candidate's row `r` against
  the box of query `b`.
-/
import proofs.«107685_j54176717471998_1_alg».proof.Proof.KIBody
import proofs.«107685_j54176717471998_1_alg».proof.Proof.BoxScore
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Score

open Cert.KernelIdeal Cert.KernelIdeal.Gen Cert.KernelIdeal.Body
open Idealize.ShloMosaic Idealize.ShloMosaic.ValueIdx

/-! ## The broadcasts only rename coordinates -/

section Layout
variable {α : Type}

/-- The candidate block broadcast over the queries: its entry at (query `b`, row `r`, feature `k`) is the block's (`r`, `k`). -/
theorem cand_bcast_apply (x : S128x400.Idx → α) (h0 : S128x400.ShapeCasts S128x400) (h1 : S128x400.ShapeCasts S1x128x400)
    (h2 : S1x128x400.Broadcasts S32x128x400) (b : Fin 32) (r : Fin 128) (k : Fin 400) :
    broadcastTo S32x128x400 (shapeCast S1x128x400 (shapeCast S128x400 x h0) h1) h2 (ix3 b r k) = x (ix2 r k) := by
  refine (broadcastTo_apply _ h2 (ix3 b r k) (ix3 (0 : Fin 1) r k) (fun a => by
    match a with
    | ⟨0, _⟩ => rfl
    | ⟨1, _⟩ => rfl
    | ⟨2, _⟩ => rfl)).trans ?_
  refine (shapeCast_apply _ h1 (ix3 (0 : Fin 1) r k) (ix2 r k) (by
    rw [Shape.rowMajor_val_two, Shape.rowMajor_val_three]
    show r.val * 400 + k.val = ((0 : Fin 1).val * 128 + r.val) * 400 + k.val
    simp)).trans ?_
  exact shapeCast_apply _ h0 (ix2 r k) (ix2 r k) rfl

/-- A query-side block broadcast over the candidates: its entry at (`b`, `r`, `k`) is the block's (`b`, `k`). -/
theorem query_bcast_apply (q : S32x400.Idx → α) (h0 : S32x400.ShapeCasts S32x400) (h1 : S32x400.ShapeCasts S32x1x400)
    (h2 : S32x1x400.Broadcasts S32x128x400) (b : Fin 32) (r : Fin 128) (k : Fin 400) :
    broadcastTo S32x128x400 (shapeCast S32x1x400 (shapeCast S32x400 q h0) h1) h2 (ix3 b r k) = q (ix2 b k) := by
  refine (broadcastTo_apply _ h2 (ix3 b r k) (ix3 b (0 : Fin 1) k) (fun a => by
    match a with
    | ⟨0, _⟩ => rfl
    | ⟨1, _⟩ => rfl
    | ⟨2, _⟩ => rfl)).trans ?_
  refine (shapeCast_apply _ h1 (ix3 b (0 : Fin 1) k) (ix2 b k) (by
    rw [Shape.rowMajor_val_two, Shape.rowMajor_val_three]
    show b.val * 400 + k.val = (b.val * 1 + (0 : Fin 1).val) * 400 + k.val
    simp)).trans ?_
  exact shapeCast_apply _ h0 (ix2 b k) (ix2 b k) rfl

end Layout

/-! ## The sum over the features -/

/-- The lane sum over the third axis, on the extended reals: at (`b`, `r`) the sum over the 400 features. -/
theorem featSum_apply (v : FVec Ideal S32x128x400 .f32) (h : S32x128x400.Reduces [2] S32x128) (hφ : FKind.Formats .f32)
    (hacc : (0x00000000#32 : BitVec 32) = FKind.add.neutral .f32 hφ) (b : Fin 32) (r : Fin 128) :
    multiReduction .add [2] S32x128 v 0x00000000#32 h hφ hacc (ix2 b r) = ∑ k : Fin 400, v (ix3 b r k) := by
  refine (Ideal.multiReduction_add_single v _ h hφ hacc (ix2 b r)).trans ?_
  show ∑ k : Fin 400, v (h.lift (ix2 b r) k) = ∑ k : Fin 400, v (ix3 b r k)
  refine Finset.sum_congr rfl fun k _ => congrArg v ?_
  funext c
  apply Fin.ext
  match c with
  | ⟨0, _⟩ => rfl
  | ⟨1, _⟩ => rfl
  | ⟨2, _⟩ => rfl

/-! ## The stored score at query `b` and row `r` -/

open Cert.BoxScore

/-- The body's stored value at query `b` and row `r` of the candidate block: the zero word less the outside distances
    summed over the features, less `c` times the inside distances summed — of the candidate block's row `r` only. -/
theorem pay_apply (q w : Vec Ideal S32x400 .f32) (x : Vec Ideal S128x400 .f32) (b : Fin 32) (r : Fin 128) :
    k0_pay1 (F := Ideal) q w x (ix2 b r)
      = (0 - ∑ k : Fin 400, outside (x (ix2 r k)) (q (ix2 b k)) (w (ix2 b k)))
        - Ideal.ofBits .f32 0x3CA3D70A#32 * ∑ k : Fin 400, inside (x (ix2 r k)) (q (ix2 b k)) (w (ix2 b k)) := by
  unfold k0_pay1
  dsimp only
  show (_ - _) - (_ * _) = _
  refine congrArg₂ (· - ·) (congrArg₂ (· - ·) ?_ ?_) (congrArg₂ (· * ·) ?_ ?_)
  · exact Ideal.ofBits_zero_f32
  · refine (featSum_apply _ _ _ _ b r).trans (Finset.sum_congr rfl fun k _ => ?_)
    show max (max (_ - _) (-(_ - _)) - _) (Ideal.ofBits .f32 0x00000000#32) = _
    rw [cand_bcast_apply, query_bcast_apply, query_bcast_apply, Ideal.ofBits_zero_f32]
    rfl
  · rfl
  · refine (featSum_apply _ _ _ _ b r).trans (Finset.sum_congr rfl fun k _ => ?_)
    show min (max (_ - _) (-(_ - _))) _ = _
    rw [cand_bcast_apply, query_bcast_apply, query_bcast_apply]
    rfl

/-- The same of the score block: its one store covers the buffer, through whole-buffer loads. -/
theorem scoreBlk_apply (q w : Vec Ideal S32x400 .f32) (x : Vec Ideal S128x400 .f32) (b : Fin 32) (r : Fin 128) :
    scoreBlk (F := Ideal) q w x (ix2 b r)
      = (0 - ∑ k : Fin 400, outside (x (ix2 r k)) (q (ix2 b k)) (w (ix2 b k)))
        - Ideal.ofBits .f32 0x3CA3D70A#32 * ∑ k : Fin 400, inside (x (ix2 r k)) (q (ix2 b k)) (w (ix2 b k)) := by
  have hz : (![0, 0] : Fin 2 → Nat) = fun _ => 0 := funext fun a => by fin_cases a <;> rfl
  unfold scoreBlk
  rw [View.canon_unit_zero hz, View.ld_unit_zero (S := S32x400) hz, View.ld_unit_zero (S := S32x400) hz,
    View.ld_unit_zero (S := S128x400) hz]
  exact pay_apply q w x b r

/-- LOCALITY: two candidate blocks that agree on row `r` give score blocks that agree on column `r`. -/
theorem scoreBlk_congr_row (q w : Vec Ideal S32x400 .f32) (x x' : Vec Ideal S128x400 .f32) (b : Fin 32) (r : Fin 128)
    (h : ∀ k : Fin 400, x (ix2 r k) = x' (ix2 r k)) :
    scoreBlk (F := Ideal) q w x (ix2 b r) = scoreBlk (F := Ideal) q w x' (ix2 b r) := by
  rw [scoreBlk_apply, scoreBlk_apply]
  simp only [h]

end Cert.KernelIdeal.Score

end
-- ==== Proof.KIExact.lean ====
/-
  The idealized kernel's run on the extended reals, with the result array named.

  At grid point `t` the result's staging buffer holds, on its columns inside the array, the margin
  `(0 − Σₖ outside) − c · Σₖ inside` of candidate `128·t + r` against query `b`: column `r` of the score block depends on row
  `r` of the candidate block only, and on the rows the fetch moves that block is the candidate array's. The columns past
  the array's end (the last point has 41 of 128) are computed from rows nothing names and are not written back. The 114
  write-backs tile the 32 × 14505 result, so after the region it is the margin array; the host lines after the region add
  the broadcast scalar.
-/
import proofs.«107685_j54176717471998_1_alg».proof.Proof.KIScore
import Idealize.ShloMosaic.Lib.Pipeline.Value
import Idealize.ShloMosaic.Lib.Pipeline.FrameSuffix
import Idealize.ShloMosaic.Lib.StableHlo.Run

set_option maxRecDepth 16384

noncomputable section

namespace Cert.KernelIdeal.Exact

open Cert.KernelIdeal Cert.KernelIdeal.Gen Cert.KernelIdeal.Body Cert.KernelIdeal.Score Cert.BoxScore
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The grid, decided once -/

/-- The printed index maps and cuts over the 114 points: the query-side windows stay at block 0, the candidate window's
    row block and the result window's column block are the point, and both are cut to the rows (columns) left in the
    array, `min 128 (14505 − 128·t)`. -/
theorem grid_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_2.xsize (grid0.coords t) (0 : Fin 2) = min 128 (14505 - 128 * t.val)
    ∧ win0_2.xsize (grid0.coords t) (1 : Fin 2) = 400
    ∧ win0_3.xsize (grid0.coords t) (0 : Fin 2) = 32
    ∧ win0_3.xsize (grid0.coords t) (1 : Fin 2) = min 128 (14505 - 128 * t.val) :=
  (by decide +kernel : ∀ t : Fin grid0.N, _)

/-! ## Rows inside the array do not see what lies past its end -/

/-- Two fillings of the candidate buffer agree on every row the fetch moves. -/
theorem fill_row_indep (t : Fin cfg0.N) (d d' : S128x400.Idx → Elt Ideal .f32)
    (g : (win0_2.xblock (grid0.coords t)).Idx → Elt Ideal .f32) (r : Fin 128)
    (hr : r.val < win0_2.xsize (grid0.coords t) (0 : Fin 2)) (k : Fin 400) :
    win0_2.fill (grid0.coords t) d g (ix2 r k) = win0_2.fill (grid0.coords t) d' g (ix2 r k) := by
  obtain ⟨-, -, -, -, -, -, -, -, -, hx21, -, -⟩ := grid_facts t
  have hm : win0_2.moved (grid0.coords t) (ix2 r k) = true := (win0_2.moved_iff _ _).mpr (fun a => by
    match a with
    | ⟨0, _⟩ => exact hr
    | ⟨1, _⟩ => show k.val < win0_2.xsize (grid0.coords t) (1 : Fin 2); rw [hx21]; exact k.isLt)
  unfold Window.fill
  dsimp only
  rw [dif_pos hm, dif_pos hm]

/-- So the score block's columns inside the array do not depend on the filling. -/
theorem cut_score (c : Dev nD) (t : Fin cfg0.N) (d2 : S128x400.Idx → Elt Ideal .f32) :
    win0_3.cut (grid0.coords t) (scoreBlk (iblk m c 0 t) (iblk m c 1 t) (win0_2.fill (grid0.coords t) d2 (iblk m c 2 t)))
      = win0_3.cut (grid0.coords t) (scoreBlk (iblk m c 0 t) (iblk m c 1 t) (cand128 m c t)) := by
  obtain ⟨-, -, -, -, -, -, -, -, hx20, -, -, hx31⟩ := grid_facts t
  funext j
  have hb : (j 0).val < 32 := lt_of_lt_of_le (j 0).isLt (win0_3.xsize_le (grid0.coords t) 0)
  have hr : (j 1).val < win0_3.xsize (grid0.coords t) (1 : Fin 2) := (j 1).isLt
  have hr128 : (j 1).val < 128 := lt_of_lt_of_le hr (win0_3.xsize_le (grid0.coords t) 1)
  have hj : win0_3.xinj (grid0.coords t) j = ix2 (⟨(j 0).val, hb⟩ : Fin 32) (⟨(j 1).val, hr128⟩ : Fin 128) := by
    funext a; apply Fin.ext
    match a with
    | ⟨0, _⟩ => rfl
    | ⟨1, _⟩ => rfl
  show scoreBlk _ _ _ (win0_3.xinj (grid0.coords t) j) = scoreBlk _ _ _ (win0_3.xinj (grid0.coords t) j)
  rw [hj]
  refine scoreBlk_congr_row _ _ _ _ _ _ (fun k => ?_)
  exact fill_row_indep t _ _ _ _ (by rw [hx20, ← hx31]; exact hr) k

/-! ## The exact body obligation -/

/-- At every point the body leaves the result's buffer at a block that, on the columns the write-back moves, is the score
    block of the query-side blocks and the padded candidate block. -/
theorem body_obligation (c : Dev nD) :
    BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (iblk m c 0 t) (iblk m c 1 t) (win0_2.fill (grid0.coords t) d2 (iblk m c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]; · rw [after_0]; iexact H0
  isplitl [H1]; · rw [after_1]; iexact H1
  isplitl [H2]
  · iexists d2
    rw [after_2, show win0_2.cut (grid0.coords t) (cand128 m c t) = iblk m c 2 t from win0_2.cut_fill _ _ _]
    iexact H2
  · iexists scoreBlk (iblk m c 0 t) (iblk m c 1 t) (win0_2.fill (grid0.coords t) d2 (iblk m c 2 t))
    rw [after_3, win0_3.fill_congr_cut (grid0.coords t) (cut_score m c t d2)]
    iexact H3

/-! ## From the blocks to the array -/

/-- The margin array: the score of query `i 0` against candidate `i 1` without its additive scalar. -/
def margin (q w : S32x400.Idx → EReal) (x : S14505x400.Idx → EReal) : S32x14505.Idx → EReal :=
  fun i => (0 - ∑ k : Fin 400, outside (x (ix2 (i 1) k)) (q (ix2 (i 0) k)) (w (ix2 (i 0) k)))
    - Ideal.ofBits .f32 0x3CA3D70A#32 * ∑ k : Fin 400, inside (x (ix2 (i 1) k)) (q (ix2 (i 0) k)) (w (ix2 (i 0) k))

/-- A query-side block is its whole array at every point (the window stays at block 0). -/
theorem qblk_apply (c : Dev nD) (t : Fin cfg0.N) (b : Fin 32) (k : Fin 400) :
    iblk m c 0 t (ix2 b k) = V m c main_v27 (ix2 b k) := by
  obtain ⟨e00, e01, -, -, -, -, -, -, -, -, -, -⟩ := grid_facts t
  unfold iblk
  rw [View.read_apply]
  refine congrArg (V m c main_v27) ?_
  funext a; apply Fin.ext
  match a with
  | ⟨0, _⟩ => show win0_0.index t (0 : Fin 2) * 32 + 1 * b.val = b.val; omega
  | ⟨1, _⟩ => show win0_0.index t (1 : Fin 2) * 400 + 1 * k.val = k.val; omega

theorem wblk_apply (c : Dev nD) (t : Fin cfg0.N) (b : Fin 32) (k : Fin 400) :
    iblk m c 1 t (ix2 b k) = V m c main_v26 (ix2 b k) := by
  obtain ⟨-, -, e10, e11, -, -, -, -, -, -, -, -⟩ := grid_facts t
  unfold iblk
  rw [View.read_apply]
  refine congrArg (V m c main_v26) ?_
  funext a; apply Fin.ext
  match a with
  | ⟨0, _⟩ => show win0_1.index t (0 : Fin 2) * 32 + 1 * b.val = b.val; omega
  | ⟨1, _⟩ => show win0_1.index t (1 : Fin 2) * 400 + 1 * k.val = k.val; omega

/-- A row of the padded candidate block that the fetch moves is row `128·t + r` of the candidate array. -/
theorem cand128_row (c : Dev nD) (t : Fin cfg0.N) (r : Fin 128) (hr : r.val < win0_2.xsize (grid0.coords t) (0 : Fin 2))
    (hn : t.val * 128 + r.val < 14505) (k : Fin 400) :
    cand128 m c t (ix2 r k) = V m c main_v36 (ix2 (⟨t.val * 128 + r.val, hn⟩ : Fin 14505) k) := by
  obtain ⟨-, -, -, -, e20, e21, -, -, -, hx21, -, -⟩ := grid_facts t
  have hm : win0_2.moved (grid0.coords t) (ix2 r k) = true := (win0_2.moved_iff _ _).mpr (fun a => by
    match a with
    | ⟨0, _⟩ => exact hr
    | ⟨1, _⟩ => show k.val < win0_2.xsize (grid0.coords t) (1 : Fin 2); rw [hx21]; exact k.isLt)
  unfold cand128 Window.fill
  dsimp only
  rw [dif_pos hm]
  unfold iblk
  rw [View.read_apply]
  refine congrArg (V m c main_v36) ?_
  funext a; apply Fin.ext
  match a with
  | ⟨0, _⟩ => show win0_2.index t (0 : Fin 2) * 128 + 1 * r.val = t.val * 128 + r.val; omega
  | ⟨1, _⟩ => show win0_2.index t (1 : Fin 2) * 400 + 1 * k.val = k.val; omega

/-- WHAT POINT `t` WRITES BACK is block `t` of the margin array of the three arrays as the region finds them. -/
theorem flushed_eq (c : Dev nD) (t : Fin cfg0.N) :
    (dats m 0 c).flushed 3 t
      = ((cfg0.win 3).blk t).view.read (Elt Ideal) (margin (V m c main_v27) (V m c main_v26) (V m c main_v36)) := by
  obtain ⟨-, -, -, -, -, -, e30, e31, hx20, -, hx30, hx31⟩ := grid_facts t
  show (cfg0.win 3).cut (grid0.coords t) ((dats m 0 c).after 3 t) = _
  rw [after_3]
  funext j
  have hb : (j 0).val < 32 := lt_of_lt_of_le (j 0).isLt (win0_3.xsize_le (grid0.coords t) 0)
  have hr : (j 1).val < win0_3.xsize (grid0.coords t) (1 : Fin 2) := (j 1).isLt
  have hr128 : (j 1).val < 128 := lt_of_lt_of_le hr (win0_3.xsize_le (grid0.coords t) 1)
  have hn : t.val * 128 + (j 1).val < 14505 := by rw [hx31] at hr; omega
  have hj : win0_3.xinj (grid0.coords t) j = ix2 (⟨(j 0).val, hb⟩ : Fin 32) (⟨(j 1).val, hr128⟩ : Fin 128) := by
    funext a; apply Fin.ext
    match a with
    | ⟨0, _⟩ => rfl
    | ⟨1, _⟩ => rfl
  have he : ((cfg0.win 3).blk t).view.emb j
      = ix2 (⟨(j 0).val, hb⟩ : Fin 32) (⟨t.val * 128 + (j 1).val, hn⟩ : Fin 14505) := by
    funext a; apply Fin.ext
    match a with
    | ⟨0, _⟩ => show win0_3.index t (0 : Fin 2) * 32 + 1 * (j 0).val = (j 0).val; omega
    | ⟨1, _⟩ => show win0_3.index t (1 : Fin 2) * 128 + 1 * (j 1).val = t.val * 128 + (j 1).val; omega
  show scoreBlk (F := Ideal) _ _ _ (win0_3.xinj (grid0.coords t) j) = margin _ _ _ (((cfg0.win 3).blk t).view.emb j)
  rw [hj, he, scoreBlk_apply]
  unfold margin
  dsimp only
  simp only [qblk_apply m c t, wblk_apply m c t,
    cand128_row m c t ⟨(j 1).val, hr128⟩ (by rw [hx20, ← hx31]; exact hr) hn]

/-- An index of the result array is in point `t`'s block iff each coordinate is in the block's range cut at the array's end. -/
theorem mem_blk (t : Fin cfg0.N) (i : S32x14505.Idx) :
    i ∈ ((cfg0.win 3).blk t).view.set ↔ ∀ a : Fin 2, win0_3.index t a * S32x128.size a ≤ (i a).val
      ∧ (i a).val < win0_3.index t a * S32x128.size a + win0_3.xsize (grid0.coords t) a := by
  show i ∈ ((View.whole main_v37).slice (win0_3.rect t)).set ↔ _
  rw [View.set_slice_whole, Rect.mem_set_unit]
  exact Iff.rfl

/-- Every index of the result array lies in the block of the point that is its column divided by 128. -/
theorem cover (i : S32x14505.Idx) :
    ∃ t : Fin cfg0.N, (cfg0.win 3).flush t = true ∧ i ∈ ((cfg0.win 3).blk t).view.set := by
  have h0 : (i 0).val < 32 := (i 0).isLt
  have h1 : (i 1).val < 14505 := (i 1).isLt
  have ht : (i 1).val / 128 < cfg0.N := by rw [show cfg0.N = 114 from N_0]; omega
  obtain ⟨-, -, -, -, -, -, e30, e31, -, -, hx30, hx31⟩ := grid_facts ⟨(i 1).val / 128, ht⟩
  refine ⟨⟨(i 1).val / 128, ht⟩, flush0_3 _, ?_⟩
  rw [mem_blk]
  intro a
  match a with
  | ⟨0, _⟩ =>
    show win0_3.index _ (0 : Fin 2) * 32 ≤ (i 0).val ∧ (i 0).val < win0_3.index _ (0 : Fin 2) * 32 + win0_3.xsize _ (0 : Fin 2)
    rw [e30, hx30]; omega
  | ⟨1, _⟩ =>
    show win0_3.index _ (1 : Fin 2) * 128 ≤ (i 1).val ∧ (i 1).val < win0_3.index _ (1 : Fin 2) * 128 + win0_3.xsize _ (1 : Fin 2)
    rw [e31, hx31]; simp only; omega

/-- THE RESULT ARRAY OF THE REGION after the run: the margin array. -/
theorem final_margin (c : Dev nD) :
    (dats m 0 c).arrAt 3 cfg0.N = margin (V m c main_v27) (V m c main_v26) (V m c main_v36) :=
  (dats m 0 c).arrAt_eq_of_cover 3 _ (fun t _ => flushed_eq m c t) cover

/-! ## The run -/

set_option backward.isDefEq.respectTransparency.types false in
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Exact

end
-- ==== Proof.KIRun.lean ====
/-
  The idealized kernel's run with @main's result named: the score array of the three gathered arrays and the scalar.

  After the region the host broadcasts the one-entry scalar `g` to the result's shape and adds the region's result, the
  margin array, entry by entry. A broadcast of a one-entry array reads that entry at every index. So @main's result at
  query `b` and candidate `n` is `g + ((0 − Σₖ outside) − c · Σₖ inside)`: the score in the kernel's grouping.
-/
import proofs.«107685_j54176717471998_1_alg».proof.Proof.KIExact

set_option maxRecDepth 16384

noncomputable section

namespace Cert.KernelIdeal.Run

open Cert.KernelIdeal Cert.KernelIdeal.Gen Cert.KernelIdeal.Body Cert.KernelIdeal.Score Cert.KernelIdeal.Exact Cert.BoxScore
open Idealize.ShloMosaic Idealize.ShloMosaic.TcCoe Idealize.ShloMosaic.Tactic Idealize.ShloMosaic.ValueIdx Idealize.ShloMosaic.StableHlo
open Idealize.SL.Sem

variable (m : (ℓ : Loc nD τ sig) → Buf (Elt Ideal) ℓ) (ρ : Dev nD → PrngReg)

/-- The one-entry scalar broadcast to the result's shape reads its entry at every index. -/
theorem scalar_bcast_apply (g : S1.Idx → EReal) (h1 : S1.BroadcastsInDim S1x1 (![1] : Fin 1 → Fin S1x1.rank))
    (h2 : S1x1.BroadcastsInDim S32x14505 (![0, 1] : Fin 2 → Fin S32x14505.rank)) (i : S32x14505.Idx) :
    broadcastInDim S32x14505 ![0, 1] h2 (broadcastInDim S1x1 ![1] h1 g) i = g (ix1 (0 : Fin 1)) := by
  refine (broadcastInDim_apply _ h2 _ i (ix2 (0 : Fin 1) (0 : Fin 1)) (fun a => match a with
    | ⟨0, _⟩ => by show 0 = if (1 : Nat) = 1 then 0 else (i 0).val; rw [if_pos rfl]
    | ⟨1, _⟩ => by show 0 = if (1 : Nat) = 1 then 0 else (i 1).val; rw [if_pos rfl])).trans ?_
  exact broadcastInDim_apply _ h1 g (ix2 (0 : Fin 1) (0 : Fin 1)) (ix1 (0 : Fin 1)) (fun a => match a with
    | ⟨0, _⟩ => by show 0 = if (1 : Nat) = 1 then 0 else (0 : Nat); rw [if_pos rfl])

/-- @MAIN'S RESULT after the host lines that follow the region: the score array. -/
theorem tail_result (c : Dev nD) :
    Pipeline.afterTail₀ cfgs (dats m) 0 (V0 m) [hostOps1] c main_v40
      = score (Ideal.ofBits .f32 0x3CA3D70A#32) (m ((c : Thread nD τ).loc main_arg3)) (V m c main_v27) (V m c main_v26)
          (V m c main_v36) := by
  unfold Pipeline.afterTail₀
  show StableHlo.after hostOps1 _ (Proc.devRef .tc main_v40) = _
  after_results
  have hg : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have hv : Pipeline.withArrays (cfgs 0).spec c (V0 m c) (fun w => (dats m 0 c).arrAt w (cfgs 0).N) (Proc.devRef .tc main_v37)
      = margin (V m c main_v27) (V m c main_v26) (V m c main_v36) :=
    (Pipeline.withArrays_arr spec0 launch0.win.arr_inj c _ _ 3).trans (final_margin m c)
  rw [hg, hv]
  funext i
  exact congrArg (· + margin (V m c main_v27) (V m c main_v26) (V m c main_v36) i)
    (scalar_bcast_apply (m ((c : Thread nD τ).loc main_arg3)) bcast_S1_S1x1_1 bcast_S1x1_S32x14505_0_1 i)

/-- THE RUN on the extended reals: every weakly fair execution of @main terminates, with the result array at the score
    array of the gathered arrays as the region finds them and the six argument arrays as launched. -/
theorem run : θ_run defs (onTc (τ := τ) (main (F := Ideal))) ⟨m, fun _ => 0, ρ⟩ (fun r => ∀ c : Dev nD,
      r.2.mem ((c.tc : Thread nD τ).loc main_v40)
        = score (Ideal.ofBits .f32 0x3CA3D70A#32) (m ((c : Thread nD τ).loc main_arg3)) (V m c main_v27) (V m c main_v26)
            (V m c main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v40 (Pipeline.mem_restRefs_of main_v40 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.Run

end
-- ==== Proof.RefScore.lean ====
/-
  The reference program's result, read at an index, is the box score in the reference's own grouping.

  Reading the result at query `b` and candidate `n` walks the program backwards: the last subtraction, the scaled sum
  of `|min (|x − q|) w|`, the subtraction of the sum of `max (|x − q| − w) 0` from the broadcast scalar `g`. Every
  broadcast on the way only renames coordinates, so the three gathered arrays are read at `(n, k)` for the candidate's
  coordinate and at `(b, k)` for the box's centre and half-width; the two float sums start from the zero word, which
  is the extended real `0`. What is left is `scoreRef` term for term.
-/
import proofs.«107685_j54176717471998_1_alg».proof.Proof.Gen.ReferenceIdeal.Read
import proofs.«107685_j54176717471998_1_alg».proof.Proof.BoxScore
import Idealize.ShloMosaic.Lib.ValueIdx
import Idealize.ShloMosaic.PureOps.Ideal.Laws

noncomputable section

namespace Cert.ReferenceIdeal.RefScore

open Cert.ReferenceIdeal Cert.ReferenceIdeal.Gen Cert.ReferenceIdeal.Read Idealize.ShloMosaic Idealize.ShloMosaic.ValueIdx

/-! ## The broadcasts only rename coordinates -/

/-- The candidate's coordinate array is read at `(n, k)` under the first sum. -/
theorem idx_x_47 (b : Fin 32) (n : Fin 14505) (k : Fin 400) :
    idx_main_v39 (idx_main_v40 (idx_main_v47 (ix2 b n) k)) = ix2 n k :=
  funext fun a => Fin.ext (by match a with | ⟨0, _⟩ => rfl | ⟨1, _⟩ => rfl)

/-- The centre array is read at `(b, k)` under the first sum. -/
theorem idx_q_47 (b : Fin 32) (n : Fin 14505) (k : Fin 400) :
    idx_main_v28 (idx_main_v41 (idx_main_v47 (ix2 b n) k)) = ix2 b k :=
  funext fun a => Fin.ext (by match a with | ⟨0, _⟩ => rfl | ⟨1, _⟩ => rfl)

/-- The half-width array is read at `(b, k)` under the first sum. -/
theorem idx_w_47 (b : Fin 32) (n : Fin 14505) (k : Fin 400) :
    idx_main_v29 (idx_main_v44 (idx_main_v47 (ix2 b n) k)) = ix2 b k :=
  funext fun a => Fin.ext (by match a with | ⟨0, _⟩ => rfl | ⟨1, _⟩ => rfl)

/-- The candidate's coordinate array is read at `(n, k)` under the second sum. -/
theorem idx_x_51 (b : Fin 32) (n : Fin 14505) (k : Fin 400) :
    idx_main_v39 (idx_main_v40 (idx_main_v51 (ix2 b n) k)) = ix2 n k :=
  funext fun a => Fin.ext (by match a with | ⟨0, _⟩ => rfl | ⟨1, _⟩ => rfl)

/-- The centre array is read at `(b, k)` under the second sum. -/
theorem idx_q_51 (b : Fin 32) (n : Fin 14505) (k : Fin 400) :
    idx_main_v28 (idx_main_v41 (idx_main_v51 (ix2 b n) k)) = ix2 b k :=
  funext fun a => Fin.ext (by match a with | ⟨0, _⟩ => rfl | ⟨1, _⟩ => rfl)

/-- The half-width array is read at `(b, k)` under the second sum. -/
theorem idx_w_51 (b : Fin 32) (n : Fin 14505) (k : Fin 400) :
    idx_main_v29 (idx_main_v48 (idx_main_v51 (ix2 b n) k)) = ix2 b k :=
  funext fun a => Fin.ext (by match a with | ⟨0, _⟩ => rfl | ⟨1, _⟩ => rfl)

/-- The scalar `g` is read at its one index whatever the result's index is. -/
theorem idx_g (b : Fin 32) (n : Fin 14505) :
    idx_main_v52 (idx_main_v53 (ix2 b n)) = ix1 0 :=
  funext fun a => Fin.ext (by match a with | ⟨0, _⟩ => rfl)

/-! ## The result at query `b` and candidate `n` -/

theorem result_at (x0 : (⟨S14541x400, .f32⟩ : BufTy).Contents (Elt Ideal)) (x1 x2 : (⟨S474x400, .f32⟩ : BufTy).Contents (Elt Ideal))
    (x3 : (⟨S1, .f32⟩ : BufTy).Contents (Elt Ideal)) (x4 : (⟨S32x2, .i32⟩ : BufTy).Contents (Elt Ideal))
    (x5 : (⟨S4x14505, .i32⟩ : BufTy).Contents (Elt Ideal))
    (b : Fin 32) (n : Fin 14505) :
    val_main_v57 (F := Ideal) x0 x1 x2 x3 x4 x5 (ix2 b n)
      = Cert.BoxScore.scoreRef (Ideal.ofBits .f32 0x3CA3D70A#32) x3 (val_main_v27 (F := Ideal) x0 x1 x4)
          (val_main_v26 (F := Ideal) x2 x4) (val_main_v38 (F := Ideal) x0 x5) (ix2 b n) := by
  simp only [val_main_v57_apply, val_main_v54_apply, val_main_v53_apply, val_main_v52_apply, val_main_v56_apply,
    val_main_v55_apply, val_main_cst_8_apply, val_main_v51_apply, val_main_v50_apply, val_main_v49_apply,
    val_main_v43_apply, val_main_v42_apply, val_main_v40_apply, val_main_v39_apply, val_main_v41_apply,
    val_main_v28_apply, val_main_v48_apply, val_main_v44_apply, val_main_v29_apply, val_main_v47_apply,
    val_main_v46_apply, val_main_v45_apply, val_main_call0_v0_apply, val_main_call0_cst_apply, val_main_cst_apply,
    val_main_cst_7_apply]
  simp only [idx_x_47, idx_q_47, idx_w_47, idx_x_51, idx_q_51, idx_w_51, idx_g,
    Ideal.ofBits_def, Ideal.subf_def, Ideal.mulf_def, Ideal.maximumf_def, Ideal.minimumf_def, Ideal.hostAbsf_def,
    Ideal.absf_def, Ideal.ofBits_zero_f32, zero_add,
    Cert.BoxScore.scoreRef, Cert.BoxScore.outside, Cert.BoxScore.inside, Cert.BoxScore.eabs]

/-- The reference's result array is `scoreRef` of its own gathered arrays. -/
theorem result_is_scoreRef
    (x0 : (⟨S14541x400, .f32⟩ : BufTy).Contents (Elt Ideal)) (x1 x2 : (⟨S474x400, .f32⟩ : BufTy).Contents (Elt Ideal))
    (x3 : (⟨S1, .f32⟩ : BufTy).Contents (Elt Ideal)) (x4 : (⟨S32x2, .i32⟩ : BufTy).Contents (Elt Ideal))
    (x5 : (⟨S4x14505, .i32⟩ : BufTy).Contents (Elt Ideal)) :
    val_main_v57 (F := Ideal) x0 x1 x2 x3 x4 x5
      = Cert.BoxScore.scoreRef (Ideal.ofBits .f32 0x3CA3D70A#32) x3 (val_main_v27 (F := Ideal) x0 x1 x4)
          (val_main_v26 (F := Ideal) x2 x4) (val_main_v38 (F := Ideal) x0 x5) := by
  funext i
  rw [eq_ix2 i]
  exact result_at x0 x1 x2 x3 x4 x5 (i 0) (i 1)

end Cert.ReferenceIdeal.RefScore

end
-- ==== Proof.PreSign.lean ====
/-
  The added precondition conjunct, decoded.

  The printed precondition is a conjunction of "all" tests, each a reduction by `and` of an elementwise comparison
  down to one bit. Its last conjunct compares every half-width with zero, `w ≥ 0`. When the whole conjunction is
  the bit 1, that conjunct is, so the comparison holds at every position: every half-width is non-negative.

  A row gather reads, at each result position, the operand at SOME position (the start index clamped into range,
  then the offset along the row). So every gathered half-width is one of the operand's, and is non-negative too,
  whatever the index array holds.
-/
import proofs.«107685_j54176717471998_1_alg».proof.Proof.Gen.Pre_finite_inputs
import proofs.«107685_j54176717471998_1_alg».proof.Proof.Gen.ReferenceIdeal
import Idealize.ShloMosaic.Lib.ReduceAll
import Idealize.ShloMosaic.Lib.StableHlo.Predicate
import Idealize.ShloMosaic.Lib.ValueIdx
import Idealize.ShloMosaic.PureOps.Ideal.Laws

noncomputable section

namespace Cert.PreSign

open Idealize.ShloMosaic

/-- The shape of a single bit has exactly one index. -/
instance : Subsingleton Cert.Pre_finite_inputs.S_.Idx := ⟨fun a b => funext fun d => d.elim0⟩

theorem arg2_nonneg (x0 : FVec Ideal Cert.Pre_finite_inputs.S14541x400 .f32) (x1 x2 : FVec Ideal Cert.Pre_finite_inputs.S474x400 .f32)
    (x3 : FVec Ideal Cert.Pre_finite_inputs.S1 .f32) (x4 : IVec Cert.Pre_finite_inputs.S32x2 32) (x5 : IVec Cert.Pre_finite_inputs.S4x14505 32)
    (h : Cert.Pre_finite_inputs.fn (F := Ideal) x0 x1 x2 x3 x4 x5 = fun _ => 1#1) : ∀ j, (0 : EReal) ≤ x2 j := by
  intro j
  have h0 := congrFun h ValueIdx.ix0
  dsimp only [Cert.Pre_finite_inputs.fn, Cert.Pre_finite_inputs.fn_part1] at h0
  -- the last conjunct of the conjunction: the "all" of the comparison with zero
  have h1 := (IntOp.andi_eq_one.1 h0).2
  -- an "all" that is 1 had a 1 at every position
  have h2 := Host.reduce_andi_all _ _ _ _ _ h1 j
  -- at one position the comparison is the order's own, against the constant zero
  change Ideal.cmp .oge (x2 j) (Ideal.ofBits .f32 0x00000000#32) = 1#1 at h2
  rw [Ideal.ofBits_zero_f32] at h2
  -- the comparison's bit is 1 exactly when the order holds
  simp only [Ideal.cmp] at h2
  exact of_decide_eq_true ((StableHlo.Predicate.ofBool_eq_one_iff _).1 h2)

/-- A gather's result at any position is the operand's at some position. -/
theorem gather_rows_nonneg (x2 : (⟨Cert.ReferenceIdeal.S474x400, .f32⟩ : BufTy).Contents (Elt Ideal)) (idx : (⟨Cert.ReferenceIdeal.S32x1, .i32⟩ : BufTy).Contents (Elt Ideal))
    (h : ∀ j, (0 : EReal) ≤ x2 j) : ∀ i, (0 : EReal) ≤ Host.gather Cert.ReferenceIdeal.gather_S474x400_S32x1_S32x400_1_0_n_n_0_1_1400 x2 idx i :=
  fun i => h _

end Cert.PreSign

end
-- ==== Proof.Bridge.lean ====
/-
  The two programs side by side on the extended reals.

  Both programs gather the same three arrays by the same host operations — the query centres (two row gathers added), the
  half-widths (a row gather of the third argument) and the candidate coordinates (a row gather of the first argument at the
  first row of the candidate ids) — so the arrays the kernel's region finds are the reference's own stages of the same
  arguments. The kernel's result is the score array of them in its grouping; the reference's is the score array in its
  grouping with an absolute value around the inside distance. The precondition makes every entry of the third argument
  non-negative, a gathered row is a row of it, so the half-widths are non-negative and the two arrays are one.
-/
import proofs.«107685_j54176717471998_1_alg».proof.Defs
import proofs.«107685_j54176717471998_1_alg».proof.Proof.KBody
import proofs.«107685_j54176717471998_1_alg».proof.Proof.KIRun
import proofs.«107685_j54176717471998_1_alg».proof.Proof.RefScore
import proofs.«107685_j54176717471998_1_alg».proof.Proof.PreSign
import Idealize.ShloMosaic.Lib.StableHlo.Run

set_option maxRecDepth 16384

noncomputable section

namespace Cert.Proof.Bridge

open Idealize.ShloMosaic Idealize.ShloMosaic.TcCoe Idealize.ShloMosaic.StableHlo Idealize.SL.Sem

section Arrays

open Cert.KernelIdeal Cert.KernelIdeal.Gen

variable (m : (ℓ : Loc nD τ sig) → Buf (Elt Ideal) ℓ)

set_option maxHeartbeats 8000000 in
/-- The query centres the region finds are the reference's stage of the same arguments. -/
theorem centres_eq (c : Dev nD) :
    V m c main_v27 = Cert.ReferenceIdeal.Read.val_main_v27 (F := Ideal) (m ((c.tc : Thread nD τ).loc main_arg0))
      (m ((c.tc : Thread nD τ).loc main_arg1)) (m ((c.tc : Thread nD τ).loc main_arg4)) := by
  show StableHlo.after hostOps0 (fun b => m (c, b)) (Proc.devRef .tc main_v27) = _
  after_results
  rfl

set_option maxHeartbeats 8000000 in
/-- The half-widths likewise. -/
theorem widths_eq (c : Dev nD) :
    V m c main_v26 = Cert.ReferenceIdeal.Read.val_main_v26 (F := Ideal) (m ((c.tc : Thread nD τ).loc main_arg2))
      (m ((c.tc : Thread nD τ).loc main_arg4)) := by
  show StableHlo.after hostOps0 (fun b => m (c, b)) (Proc.devRef .tc main_v26) = _
  after_results
  rfl

set_option maxHeartbeats 8000000 in
/-- The candidate coordinates likewise. -/
theorem cands_eq (c : Dev nD) :
    V m c main_v36 = Cert.ReferenceIdeal.Read.val_main_v38 (F := Ideal) (m ((c.tc : Thread nD τ).loc main_arg0))
      (m ((c.tc : Thread nD τ).loc main_arg5)) := by
  show StableHlo.after hostOps0 (fun b => m (c, b)) (Proc.devRef .tc main_v36) = _
  after_results
  rfl

end Arrays

/-! ## The claims -/

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result is the score array of the gathered arrays and the reference's is the same
    array: the reference's grouping and its absolute value change nothing once the half-widths are non-negative. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  -- every half-width the reference gathers is an entry of the third argument, which the precondition makes non-negative
  have hw : ∀ j, (0 : EReal) ≤ Cert.ReferenceIdeal.Read.val_main_v26 (F := Ideal)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4)) j :=
    Cert.PreSign.gather_rows_nonneg _ _ (Cert.PreSign.arg2_nonneg _ _ _ _ _ _ (hpre c))
  show Cert.ReferenceIdeal.Value.res_main_v57 m' c = _
  rw [Cert.ReferenceIdeal.Read.val_main_v57_eq, Cert.ReferenceIdeal.RefScore.result_is_scoreRef, a0, a1, a2, a3, a4, a5,
    Cert.BoxScore.scoreRef_eq_score _ _ _ _ _ hw, centres_eq, widths_eq, cands_eq]

end Cert.Proof.Bridge

end
-- ==== Proof.lean ====
/-
  The certificate of the box-score kernel against its reference.

  Both programs score 32 query boxes against 14505 candidate points over 400 features. A box has a centre and a half-width
  per feature; with `d = |x − centre|` the distance outside the box along a feature is `max (d − width) 0` and the distance
  inside is `min d width`; the score is the scalar `g` less the summed outside distances less `c` times the summed inside
  distances. The kernel computes it 128 candidates at a time on a grid of 114 points (the last block holds 41 candidates
  and is cut at the array's end); the reference computes it whole and takes an absolute value of the inside distance, which
  changes nothing when the half-widths are non-negative. The precondition asks every float input finite and every entry of
  the half-width table non-negative.

  The three frames: the two kernel programs run, fault nowhere and leave their arguments unchanged at any float instance
  (the body's run on whole staging buffers, the result window forgotten where its contents cannot be named); the reference's
  frame is its run with the result dropped. The idealization rewrote nothing. On the extended reals both programs end with
  the same score array.
-/
import proofs.«107685_j54176717471998_1_alg».proof.Defs
import proofs.«107685_j54176717471998_1_alg».proof.Proof.Gen.Kernel
import proofs.«107685_j54176717471998_1_alg».proof.Proof.Gen.KernelIdeal
import proofs.«107685_j54176717471998_1_alg».proof.Proof.Gen.ReferenceIdeal
import proofs.«107685_j54176717471998_1_alg».proof.Proof.Gen.Pre_finite_inputs
import proofs.«107685_j54176717471998_1_alg».proof.Proof.Gen.ReferenceIdeal.Run
import proofs.«107685_j54176717471998_1_alg».proof.Proof.Gen.ReferenceIdeal.Read
import proofs.«107685_j54176717471998_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Bridge.frame_k, Bridge.frame_ki, Bridge.frame_ri, trivial, Bridge.algebraic⟩

end Cert.Proof

end
